-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x2048 : Shape := ⟨4, ![2, 16, 2048, 2048]⟩
abbrev S2048 : Shape := ⟨1, ![2048]⟩
abbrev S_ : Shape := ⟨0, ![]⟩

class Facts : Prop where
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2x16x2048x2048 .f32) (main_arg1 : FVec F S2048 .f32) (main_arg2 : IVec S2048 32) : IVec S_ 1 :=
  let main_v0 : FVec F S2x16x2048x2048 .f32 := Host.absf main_arg0
  let main_cst : FVec F S_ .f32 := constant S_ .f32 0x7F800000#32
  let main_v1 : FVec F S2x16x2048x2048 .f32 := broadcastInDim S2x16x2048x2048 ![] bcast_S_S2x16x2048x2048 main_cst
  let main_v2 : IVec S2x16x2048x2048 1 := cmpf .olt main_v0 main_v1
  let main_c : IVec S_ 1 := constantI S_ 1 1#1
  let main_v3 : IVec S_ 1 := (fun x v => Host.reduce IntOp.andi x v reducesTo_S2x16x2048x2048_S_d0_1_2_3 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S2x16x2048x2048 : Shape := ⟨4, ![2, 16, 2048, 2048]⟩
abbrev S2048 : Shape := ⟨1, ![2048]⟩
abbrev S_ : Shape := ⟨0, ![]⟩
abbrev S2048x1 : Shape := ⟨2, ![2048, 1]⟩
abbrev S1x1x2048x1 : Shape := ⟨4, ![1, 1, 2048, 1]⟩
abbrev S1x1x512x2048 : Shape := ⟨4, ![1, 1, 512, 2048]⟩
abbrev S1x1x512x1 : Shape := ⟨4, ![1, 1, 512, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x16x2048x2048, .f32⟩
  | .hbm, ⟨1, _⟩ => ⟨S2048, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048, .f32⟩
  | .hbm, ⟨12, _⟩ => ⟨S1x1x2048x1, .f32⟩
  | .hbm, ⟨13, _⟩ => ⟨S2x16x2048x2048, .f32⟩
  | .local _ .vmem, ⟨0, _⟩ => ⟨S1x1x512x2048, .f32⟩
  | .local _ .vmem, ⟨1, _⟩ => ⟨S1x1x512x2048, .f32⟩
  | .local _ .vmem, ⟨2, _⟩ => ⟨S1x1x512x1, .f32⟩
  | .local _ .vmem, ⟨3, _⟩ => ⟨S1x1x512x1, .f32⟩
  | .local _ .vmem, ⟨4, _⟩ => ⟨S1x1x512x2048, .f32⟩
  | .local _ .vmem, ⟨5, _⟩ => ⟨S1x1x512x2048, .f32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg2.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S1x1x2048x1 : S2048.ShapeCasts S1x1x2048x1
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  inb_S1x1x512x1_S1x1x512x1_0_0_0_0 : ∀ a, (![0, 0, 0, 0] : Fin 4 → Nat) a + S1x1x512x1.size a ≤ S1x1x512x1.size a
  h_S1x1x512x1 : 0 < S1x1x512x1.numel
  shapeCasts_S1x1x512x1_S1x1x512x1 : S1x1x512x1.ShapeCasts S1x1x512x1
  broadcasts_S1x1x512x1_S1x1x512x2048 : S1x1x512x1.Broadcasts S1x1x512x2048
  gather_S2048_S2048x1_S2048_n_0_n_n_0_1_1_wf : GatherDims.WF S2048 S2048x1 S2048 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x2048.size a ≤ S2x16x2048x2048.size a
  hwx0_0 : ∀ i : grid0.Coords, EltTy.bits .f32 = 32 ∨ (Rect.block (s := S2x16x2048x2048) S1x1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x1.size a ≤ S1x1x2048x1.size a
  hwx0_1 : ∀ i : grid0.Coords, EltTy.bits .f32 = 32 ∨ (Rect.block (s := S1x1x2048x1) S1x1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x2048.size a ≤ S2x16x2048x2048.size a
  hwx0_2 : ∀ i : grid0.Coords, EltTy.bits .f32 = 32 ∨ (Rect.block (s := S2x16x2048x2048) S1x1x512x2048.size (cc0_transform_2 i) (hinb0_2 i)).WholeWords (EltTy.packing .f32)

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

abbrev win0_0 : Pipeline.Window sig grid0 :=
  Pipeline.Window.ofSpec (Memref.whole main_arg0) S1x1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x2048 : Shape := ⟨4, ![2, 16, 2048, 2048]⟩
abbrev S2048 : Shape := ⟨1, ![2048]⟩
abbrev S_ : Shape := ⟨0, ![]⟩
abbrev S2048x1 : Shape := ⟨2, ![2048, 1]⟩
abbrev S1x1x2048x1 : Shape := ⟨4, ![1, 1, 2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S2048, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048, .f32⟩
  | .hbm, ⟨12, _⟩ => ⟨S1x1x2048x1, .f32⟩
  | .hbm, ⟨13, _⟩ => ⟨S2x16x2048x2048, .f32⟩
  | .hbm, ⟨14, _⟩ => ⟨S2x16x2048x2048, .f32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x1x2048x1_2 : S2048.BroadcastsInDim S1x1x2048x1 (![2] : Fin 1 → Fin S1x1x2048x1.rank)
  bcast_S1x1x2048x1_S2x16x2048x2048_0_1_2_3 : S1x1x2048x1.BroadcastsInDim S2x16x2048x2048 (![0, 1, 2, 3] : Fin 4 → Fin S2x16x2048x2048.rank)
  gather_S2048_S2048x1_S2048_n_0_n_n_0_1_1_wf : GatherDims.WF S2048 S2048x1 S2048 [] [0] [] [0] [] 1 ![1]

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

class Facts : Prop extends Facts₀ where

variable [Facts]
-- ==== Proof.AddRows.lean ====
/-
  The function both programs compute: every entry of the score tensor [2, 16, 2048, 2048] plus the bias of its
  query row, `out[b, h, q, k] = scores[b, h, q, k] + g[q]`, where `g : [2048]` is the per-row bias (in both
  programs the bias table gathered at the offsets). Stated for any float instance: the sum is the instance's own
  addition, taken in the same order on both sides, so no law of the extended reals is needed to join them.
-/
import Idealize.ShloMosaic.PureOps

noncomputable section

namespace Cert.AddRows

open Idealize.ShloMosaic

variable {F : FTy → Type} [FloatOps F]

/-- The score tensor's shape and the shape of a vector with one entry per query row. -/
abbrev Scores : Shape := ⟨4, ![2, 16, 2048, 2048]⟩
abbrev Rows : Shape := ⟨1, ![2048]⟩

/-- The query row `q` of the entry `(b, h, q, k)`. -/
abbrev rowOf (i : Scores.Idx) : Rows.Idx := fun a => match a with
  | ⟨0, _⟩ => ⟨(i 2).val, (i 2).isLt⟩

/-- Every entry plus the bias of its query row. -/
def addRows (x : Scores.Idx → Elt F .f32) (g : Rows.Idx → Elt F .f32) : Scores.Idx → Elt F .f32 :=
  fun i => FloatOps.addf (x i) (g (rowOf i))

theorem addRows_apply (x : Scores.Idx → Elt F .f32) (g : Rows.Idx → Elt F .f32) (i : Scores.Idx) :
    addRows x g i = FloatOps.addf (x i) (g (rowOf i)) := rfl

end Cert.AddRows

end
-- ==== Proof.KernelRows.lean ====
/-
  The kernel's result array, as one function of the arguments. The grid has 2 · 16 · 4 points; point (b, h, qi) adds to
  the [512, 2048] block of scores at (b, h, rows 512·qi …) the [512, 1] block of the per-row bias column at rows
  512·qi …, broadcast along the key axis, and writes the sum back to the same block of the result. The bias column is the
  gathered bias row vector reshaped to [1, 1, 2048, 1] before the call. So the block a point writes back is that point's
  block of `addRows scores g`; the 128 blocks tile the result, and the result array ends at `addRows scores g`.
-/
import proofs.«115142_j61933428413984_1_alg».proof.Proof.Gen.KernelIdeal.Value
import proofs.«115142_j61933428413984_1_alg».proof.Proof.AddRows

noncomputable section

namespace Cert.KernelIdeal.Rows

open Cert.KernelIdeal Cert.KernelIdeal.Gen Idealize.ShloMosaic Idealize.ShloMosaic.TcCoe Idealize.SL.Sem Cert.AddRows
open Idealize.ShloMosaic.Pipeline (Dat)

variable {F : FTy → Type} [FloatOps F]
variable (m : (ℓ : Loc nD τ sig) → Buf (Elt F) ℓ) (ρ : Dev nD → PrngReg)

/-- The per-row bias: the bias table gathered at the offsets, a negative offset first moved up by 2048. -/
def rowBias (bias : (⟨S2048, .f32⟩ : BufTy).Contents (Elt F)) (off : (⟨S2048, .i32⟩ : BufTy).Contents (Elt F)) :
    (⟨S2048, .f32⟩ : BufTy).Contents (Elt F) :=
  Host.gather gather_S2048_S2048x1_S2048_n_0_n_n_0_1_1 bias (broadcastInDim S2048x1 ![0] bcast_S2048_S2048x1_0
    (select (cmpi .slt off (broadcastInDim S2048 ![] bcast_S_S2048 (constantI S_ 32 0#32)))
      (addi off (broadcastInDim S2048 ![] bcast_S_S2048 (constantI S_ 32 2048#32))) off))

/-- The per-row bias of the launch's arguments on core `c`. -/
abbrev g (c : Dev nD) : (⟨S2048, .f32⟩ : BufTy).Contents (Elt F) :=
  rowBias (m ((c : Thread nD τ).loc main_arg1)) (m ((c : Thread nD τ).loc main_arg2))

/-- When the call is entered, its second operand holds the per-row bias as a [1, 1, 2048, 1] column. -/
theorem column_eq (c : Dev nD) :
    (V m c main_v7 : S1x1x2048x1.Idx → Elt F .f32) = shapeCast S1x1x2048x1 (g m c) shapeCasts_S2048_S1x1x2048x1 := by
  dsimp only [Gen.V, Gen.hostOps0]
  after_results
  rfl

/-- The column at `(0, 0, q, 0)` is the row vector at `q`. -/
theorem column_apply (c : Dev nD) (j : S1x1x2048x1.Idx) (k : S2048.Idx) (hk : (k 0).val = (j 2).val) :
    V m c main_v7 j = g m c k := by
  rw [column_eq]
  refine shapeCast_apply _ _ j k ?_
  have h0 : (j 0).val < 1 := (j 0).isLt
  have h1 : (j 1).val < 1 := (j 1).isLt
  have h3 : (j 3).val < 1 := (j 3).isLt
  rw [Shape.rowMajor_val_one, Shape.rowMajor_val_four]
  show (k 0).val = (((j 0).val * 1 + (j 1).val) * 2048 + (j 2).val) * 1 + (j 3).val
  omega

theorem zero_offsets : (![0, 0, 0, 0] : Fin 4 → Nat) = fun _ => 0 := funext fun a => by fin_cases a <;> rfl

/-- The printed index maps over the 128 grid points: the scores' block moves with the result's block; the bias column's
    block follows the result's query-tile coordinate and is 0 elsewhere; the result's block indices stay in range. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (0 : Fin 4) = 0 ∧ win0_1.index t (1 : Fin 4) = 0
    ∧ win0_1.index t (2 : Fin 4) = win0_2.index t (2 : Fin 4) ∧ win0_1.index t (3 : Fin 4) = 0
    ∧ win0_2.index t (0 : Fin 4) ≤ 1 ∧ win0_2.index t (1 : Fin 4) ≤ 15
    ∧ win0_2.index t (2 : Fin 4) ≤ 3 ∧ win0_2.index t (3 : Fin 4) = 0 :=
  (by decide +kernel : ∀ t : Fin grid0.N, _)

/-- Every block of the result is some point's. -/
theorem index_onto : ∀ (q0 : Fin 2) (q1 : Fin 16) (q2 : Fin 4), ∃ t : Fin cfg0.N, win0_2.index t = ![q0.val, q1.val, q2.val, 0] :=
  (by decide +kernel : ∀ (q0 : Fin 2) (q1 : Fin 16) (q2 : Fin 4), ∃ t : Fin grid0.N, win0_2.index t = ![q0.val, q1.val, q2.val, 0])

/-- What point `t` writes back is block `t` of `addRows scores g`. -/
theorem flushed_eq (c : Dev nD) (t : Fin cfg0.N) :
    (dats m 0 c).flushed 2 t = ((cfg0.win 2).blk t).view.read (Elt F) (addRows (V m c main_arg0) (g m c)) := by
  rw [Value.flushed2]
  unfold out0_2
  simp only [View.ld_unit_zero (S := S1x1x512x2048) zero_offsets, View.ld_unit_zero (S := S1x1x512x1) zero_offsets]
  obtain ⟨e0, e1, e2, e3, f0, f1, f2, f3, -, -, -, -⟩ := index_facts t
  funext y
  refine (Value.canon2_eq (iblk m c 0 t) (iblk m c 1 t) y).trans ?_
  have hy0 : (y 0).val < 1 := (y 0).isLt
  have hy1 : (y 1).val < 1 := (y 1).isLt
  have hy2 : (y 2).val < 512 := (y 2).isLt
  have hy3 : (y 3).val < 2048 := (y 3).isLt
  show FloatOps.addf (V m c main_arg0 (((cfg0.win 0).blk t).view.emb (Value.ix2_0 y)))
      (V m c main_v7 (((cfg0.win 1).blk t).view.emb (Value.ix2_1 y)))
    = FloatOps.addf (V m c main_arg0 (((cfg0.win 2).blk t).view.emb y)) (g m c (rowOf (((cfg0.win 2).blk t).view.emb y)))
  have hs : ((cfg0.win 0).blk t).view.emb (Value.ix2_0 y) = ((cfg0.win 2).blk t).view.emb y := by
    funext a; apply Fin.ext
    match a with
    | ⟨0, _⟩ => show win0_0.index t (0 : Fin 4) * 1 + 1 * 0 = win0_2.index t (0 : Fin 4) * 1 + 1 * (y 0).val; omega
    | ⟨1, _⟩ => show win0_0.index t (1 : Fin 4) * 1 + 1 * 0 = win0_2.index t (1 : Fin 4) * 1 + 1 * (y 1).val; omega
    | ⟨2, _⟩ => show win0_0.index t (2 : Fin 4) * 512 + 1 * (y 2).val = win0_2.index t (2 : Fin 4) * 512 + 1 * (y 2).val; omega
    | ⟨3, _⟩ => show win0_0.index t (3 : Fin 4) * 2048 + 1 * (y 3).val = win0_2.index t (3 : Fin 4) * 2048 + 1 * (y 3).val; omega
  have hb : V m c main_v7 (((cfg0.win 1).blk t).view.emb (Value.ix2_1 y)) = g m c (rowOf (((cfg0.win 2).blk t).view.emb y)) := by
    refine column_apply m c _ _ ?_
    show win0_2.index t (2 : Fin 4) * 512 + 1 * (y 2).val = win0_1.index t (2 : Fin 4) * 512 + 1 * (y 2).val
    omega
  rw [hs, hb]

/-- An index of the result is in point `t`'s block iff each coordinate is in the block's range on its axis. -/
theorem mem_block (t : Fin cfg0.N) (i : S2x16x2048x2048.Idx) :
    i ∈ ((cfg0.win 2).blk t).view.set ↔ ∀ a : Fin 4, win0_2.index t a * S1x1x512x2048.size a ≤ (i a).val
      ∧ (i a).val < win0_2.index t a * S1x1x512x2048.size a + S1x1x512x2048.size a := by
  show i ∈ ((View.whole main_v8).slice (win0_2.rect t)).set ↔ _
  rw [View.set_slice_whole, Rect.mem_set_unit]
  exact Iff.rfl

/-- The blocks tile the result: entry `(b, h, q, k)` is in the block of the point whose indices are `(b, h, q / 512, 0)`. -/
theorem cover (i : S2x16x2048x2048.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := index_onto ⟨(i 0).val, hi0⟩ ⟨(i 1).val, hi1⟩ ⟨(i 2).val / 512, by omega⟩
  have q0 : win0_2.index t (0 : Fin 4) = (i 0).val := congrFun ht 0
  have q1 : win0_2.index t (1 : Fin 4) = (i 1).val := congrFun ht 1
  have q2 : win0_2.index t (2 : Fin 4) = (i 2).val / 512 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 2048 ≤ (i 3).val ∧ (i 3).val < win0_2.index t (3 : Fin 4) * 2048 + 2048; omega

/-- The result array after the run is `addRows` of the scores as launched and the per-row bias. -/
theorem final (c : Dev nD) :
    (dats m 0 c).arrAt 2 cfg0.N = addRows (m ((c : Thread nD τ).loc main_arg0)) (g m c) :=
  ((dats m 0 c).arrAt_eq_of_cover 2 (addRows (V m c main_arg0) (g m c)) (fun t _ => flushed_eq m c t) cover).trans
    (by rw [V_main_arg0])

/-- The kernel's run: the result at `addRows scores g`, the arguments unchanged. -/
theorem run : θ_run defs (onTc (τ := τ) (main (F := F))) ⟨m, fun _ => 0, ρ⟩ fun r => ∀ c : Dev nD,
      r.2.mem ((c : Thread nD τ).loc main_v8) = addRows (m ((c : Thread nD τ).loc main_arg0)) (g m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Rows

end
-- ==== Proof.ReferenceRows.lean ====
/-
  The reference's result, read index by index: `scores + broadcast (broadcast g)` with `g` the bias table gathered
  at the offsets (a negative offset first moved up by 2048) is, at `(b, h, q, k)`, `scores[b, h, q, k] + g[q]`: the two
  broadcasts (a row vector to [1, 1, 2048, 1], then to the full shape) read the row vector at the entry's query row.
-/
import proofs.«115142_j61933428413984_1_alg».proof.Proof.Gen.ReferenceIdeal.Read
import proofs.«115142_j61933428413984_1_alg».proof.Proof.AddRows

noncomputable section

namespace Cert.ReferenceIdeal.Rows

open Cert.ReferenceIdeal Cert.ReferenceIdeal.Gen Idealize.ShloMosaic Cert.AddRows

variable {F : FTy → Type} [FloatOps F]

/-- The per-row bias: the bias table gathered at the offsets, a negative offset first moved up by 2048. -/
def rowBias (bias : (⟨S2048, .f32⟩ : BufTy).Contents (Elt F)) (off : (⟨S2048, .i32⟩ : BufTy).Contents (Elt F)) :
    (⟨S2048, .f32⟩ : BufTy).Contents (Elt F) :=
  Host.gather gather_S2048_S2048x1_S2048_n_0_n_n_0_1_1 bias (broadcastInDim S2048x1 ![0] bcast_S2048_S2048x1_0
    (select (cmpi .slt off (broadcastInDim S2048 ![] bcast_S_S2048 (constantI S_ 32 0#32)))
      (addi off (broadcastInDim S2048 ![] bcast_S_S2048 (constantI S_ 32 2048#32))) off))

/-- The two broadcasts composed read the row vector at the entry's query row. -/
theorem row_of_broadcasts (i : S2x16x2048x2048.Idx) : Read.idx_main_v7 (Read.idx_main_v8 i) = rowOf i :=
  funext fun a => Fin.ext (by match a with | ⟨0, _⟩ => rfl)

/-- The reference's result is `addRows` of the scores and the per-row bias. -/
theorem result_eq (x0 : (⟨S2x16x2048x2048, .f32⟩ : BufTy).Contents (Elt F)) (x1 : (⟨S2048, .f32⟩ : BufTy).Contents (Elt F))
    (x2 : (⟨S2048, .i32⟩ : BufTy).Contents (Elt F)) :
    Read.val_main_v9 (F := F) x0 x1 x2 = addRows x0 (rowBias x1 x2) := by
  funext i
  rw [Read.val_main_v9_apply, Read.val_main_v8_apply, Read.val_main_v7_apply, row_of_broadcasts]
  rfl

end Cert.ReferenceIdeal.Rows

end
-- ==== Proof.lean ====
/-
  Per-query bias add over a [2, 16, 2048, 2048] score tensor: `out[b, h, q, k] = scores[b, h, q, k] + bias[offset[q]]`.

  Both programs first gather the bias table at the offsets (a negative offset moved up by 2048), by the same host
  operations; call the gathered row vector `g`. The kernel reshapes `g` to a [1, 1, 2048, 1] column and, at each of its
  2 · 16 · 4 grid points, adds the [512, 1] piece of the column, broadcast along the key axis, to a [512, 2048] block
  of the scores; the reference broadcasts `g` to the full shape and adds once. Index by index both are
  `scores[b, h, q, k] + g[q]` (`Cert.AddRows.addRows`), the same addition in the same order, so the two results are
  equal at every float instance and in particular as extended reals; finiteness of the inputs is not used.

  * the frames of the two kernel programs are the generated frame runs; the reference's is its generated run;
  * the idealization rewrote nothing, so `preserves` is `True`;
  * `algebraic`: the kernel's result array is `addRows scores g` (Proof/KernelRows.lean: each point's block, then the
    blocks tile the array) and so is the reference's (Proof/ReferenceRows.lean: the broadcasts read at an index).
-/
import proofs.«115142_j61933428413984_1_alg».proof.Defs
import proofs.«115142_j61933428413984_1_alg».proof.Proof.Gen.Kernel
import proofs.«115142_j61933428413984_1_alg».proof.Proof.Gen.Kernel.Skeleton
import proofs.«115142_j61933428413984_1_alg».proof.Proof.Gen.Kernel.Launch
import proofs.«115142_j61933428413984_1_alg».proof.Proof.Gen.Kernel.Points
import proofs.«115142_j61933428413984_1_alg».proof.Proof.Gen.Kernel.Frame
import proofs.«115142_j61933428413984_1_alg».proof.Proof.Gen.KernelIdeal
import proofs.«115142_j61933428413984_1_alg».proof.Proof.Gen.KernelIdeal.Skeleton
import proofs.«115142_j61933428413984_1_alg».proof.Proof.Gen.KernelIdeal.Launch
import proofs.«115142_j61933428413984_1_alg».proof.Proof.Gen.KernelIdeal.Points
import proofs.«115142_j61933428413984_1_alg».proof.Proof.Gen.KernelIdeal.Frame
import proofs.«115142_j61933428413984_1_alg».proof.Proof.Gen.ReferenceIdeal
import proofs.«115142_j61933428413984_1_alg».proof.Proof.Gen.Pre_finite_inputs
import proofs.«115142_j61933428413984_1_alg».proof.Proof.Gen.KernelIdeal.Value
import proofs.«115142_j61933428413984_1_alg».proof.Proof.Gen.ReferenceIdeal.Run
import proofs.«115142_j61933428413984_1_alg».proof.Proof.Gen.ReferenceIdeal.Read
import proofs.«115142_j61933428413984_1_alg».proof.Proof.AddRows
import proofs.«115142_j61933428413984_1_alg».proof.Proof.KernelRows
import proofs.«115142_j61933428413984_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite was applied. -/
theorem preserves : Cert.preserves_Kernel_KernelIdeal := trivial

/-- From memories that agree on scores, bias and offsets, both programs end with the result array at
    `scores[b, h, q, k] + g[q]`, `g` the bias gathered at the offsets: the two gathers are the same operation of the
    same operands, and the sums are taken entry by entry in the same order. -/
theorem algebraic : Cert.algebraic_KernelIdeal_ReferenceIdeal := by
  intro m ρ m' ρ' _ hagree
  refine ⟨fun c => Cert.AddRows.addRows (m ((c : Thread Cert.KernelIdeal.nD Cert.KernelIdeal.τ).loc Cert.KernelIdeal.main_arg0))
      (Cert.KernelIdeal.Rows.g m c), Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Rows.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
